-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3072x16 : Shape := ⟨2, ![3072, 16]⟩
abbrev S3072x3072 : Shape := ⟨2, ![3072, 3072]⟩
abbrev S3072 : Shape := ⟨1, ![3072]⟩
abbrev S_ : Shape := ⟨0, ![]⟩

class Facts : Prop where
  bcast_S_S3072x16 : S_.BroadcastsInDim S3072x16 (![] : Fin 0 → Fin S3072x16.rank)
  reducesTo_S3072x16_S_d0_1 : S3072x16.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : IVec S3072 32) (main_v13 : IVec S_ 1) (main_v15 : IVec S3072 1) (main_c_5 : IVec S_ 32) : IVec S_ 1 :=
  let main_v16 : IVec S3072 32 := broadcastInDim S3072 ![] bcast_S_S3072 main_c_5
  let main_v17 : IVec S3072 1 := cmpi .slt main_arg4 main_v16
  let main_v18 : IVec S3072 1 := andi main_v15 main_v17
  let main_c_6 : IVec S_ 1 := constantI S_ 1 1#1
  let main_v19 : IVec S_ 1 := (fun x v => Host.reduce IntOp.andi x v reducesTo_S3072_S_d0 h_S_) main_v18 main_c_6
  let main_v20 : IVec S_ 1 := andi main_v13 main_v19
  main_v20

def fn {F : FTy → Type} [FloatOps F] (main_arg0 : FVec F S3072x16 .f32) (main_arg1 : FVec F S3072x16 .f32) (main_arg2 : FVec F S3072x3072 .f32) (main_arg3 : IVec S3072 32) (main_arg4 : IVec S3072 32) : IVec S_ 1 :=
  let main_v0 : FVec F S3072x16 .f32 := Host.absf main_arg0
  let main_cst : FVec F S_ .f32 := constant S_ .f32 0x7F800000#32
  let main_v1 : FVec F S3072x16 .f32 := broadcastInDim S3072x16 ![] bcast_S_S3072x16 main_cst
  let main_v2 : IVec S3072x16 1 := cmpf .olt main_v0 main_v1
  let main_c : IVec S_ 1 := constantI S_ 1 1#1
  let main_v3 : IVec S_ 1 := (fun x v => Host.reduce IntOp.andi x v reducesTo_S3072x16_S_d0_1 h_S_) main_v2 main_c
  let main_v4 : FVec F S3072x16 .f32 := Host.absf main_arg1
  let main_cst_0 : FVec F S_ .f32 := constant S_ .f32 0x7F800000#32
  let main_v5 : FVec F S3072x16 .f32 := broadcastInDim S3072x16 ![] bcast_S_S3072x16 main_cst_0
  let main_v6 : IVec S3072x16 1 := cmpf .olt main_v4 main_v5
  let main_c_1 : IVec S_ 1 := constantI S_ 1 1#1
  let main_v7 : IVec S_ 1 := (fun x v => Host.reduce IntOp.andi x v reducesTo_S3072x16_S_d0_1 h_S_) main_v6 main_c_1
  let main_v8 : IVec S_ 1 := andi main_v3 main_v7
  let main_v9 : FVec F S3072x3072 .f32 := Host.absf main_arg2
  let main_cst_2 : FVec F S_ .f32 := constant S_ .f32 0x7F800000#32
  let main_v10 : FVec F S3072x3072 .f32 := broadcastInDim S3072x3072 ![] bcast_S_S3072x3072 main_cst_2
  let main_v11 : IVec S3072x3072 1 := cmpf .olt main_v9 main_v10
  let main_c_3 : IVec S_ 1 := constantI S_ 1 1#1
  let main_v12 : IVec S_ 1 := (fun x v => Host.reduce IntOp.andi x v reducesTo_S3072x3072_S_d0_1 h_S_) main_v11 main_c_3
  let main_v13 : IVec S_ 1 := andi main_v8 main_v12
  let main_c_4 : IVec S_ 32 := constantI S_ 32 0#32
  let main_v14 : IVec S3072 32 := broadcastInDim S3072 ![] bcast_S_S3072 main_c_4
  let main_v15 : IVec S3072 1 := cmpi .sge main_arg4 main_v14
  let main_c_5 : IVec S_ 32 := constantI S_ 32 16#32
  fn_part1 (F := F) main_arg4 main_v13 main_v15 main_c_5
-- ==== Kernel.lean ====
abbrev S3072x16 : Shape := ⟨2, ![3072, 16]⟩
abbrev S3072x3072 : Shape := ⟨2, ![3072, 3072]⟩
abbrev S3072 : Shape := ⟨1, ![3072]⟩
abbrev S_ : Shape := ⟨0, ![]⟩
abbrev S3072x1x1 : Shape := ⟨3, ![3072, 1, 1]⟩
abbrev S1x3072x1 : Shape := ⟨3, ![1, 3072, 1]⟩
abbrev S3072x3072x1 : Shape := ⟨3, ![3072, 3072, 1]⟩
abbrev S3072x49152 : Shape := ⟨2, ![3072, 49152]⟩
abbrev S384x16 : Shape := ⟨2, ![384, 16]⟩
abbrev S384x384x1 : Shape := ⟨3, ![384, 384, 1]⟩
abbrev S384x1x1 : Shape := ⟨3, ![384, 1, 1]⟩
abbrev S1x384x1 : Shape := ⟨3, ![1, 384, 1]⟩
abbrev S384x6144 : Shape := ⟨2, ![384, 6144]⟩
abbrev S384x1x16 : Shape := ⟨3, ![384, 1, 16]⟩
abbrev S1x384x16 : Shape := ⟨3, ![1, 384, 16]⟩
abbrev S384x384x16 : Shape := ⟨3, ![384, 384, 16]⟩
abbrev S3072x3072x16 : Shape := ⟨3, ![3072, 3072, 16]⟩

abbrev nBuf : Space → Nat
  | .hbm => 27
  | .vmem => 12
  | .smem => 0
  | _ => 0

abbrev bufTy : (tb : Table) → Fin (tcTables nBuf tb) → BufTy
  | .hbm, ⟨0, _⟩ => ⟨S3072x16, .f32⟩
  | .hbm, ⟨1, _⟩ => ⟨S3072x16, .f32⟩
  | .hbm, ⟨2, _⟩ => ⟨S3072x3072, .f32⟩
  | .hbm, ⟨3, _⟩ => ⟨S3072, .i32⟩
  | .hbm, ⟨4, _⟩ => ⟨S3072, .i32⟩
  | .hbm, ⟨5, _⟩ => ⟨S_, .i32⟩
  | .hbm, ⟨6, _⟩ => ⟨S3072, .i32⟩
  | .hbm, ⟨7, _⟩ => ⟨S3072, .i1⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S3072, .i1⟩
  | .hbm, ⟨12, _⟩ => ⟨S_, .i32⟩
  | .hbm, ⟨13, _⟩ => ⟨S3072, .i32⟩
  | .hbm, ⟨14, _⟩ => ⟨S3072, .i1⟩
  | .hbm, ⟨15, _⟩ => ⟨S3072, .i1⟩
  | .hbm, ⟨16, _⟩ => ⟨S_, .i32⟩
  | .hbm, ⟨17, _⟩ => ⟨S3072, .i32⟩
  | .hbm, ⟨18, _⟩ => ⟨S3072, .i32⟩
  | .hbm, ⟨19, _⟩ => ⟨S3072x1x1, .i32⟩
  | .hbm, ⟨20, _⟩ => ⟨S_, .i32⟩
  | .hbm, ⟨21, _⟩ => ⟨S3072, .i32⟩
  | .hbm, ⟨22, _⟩ => ⟨S3072, .i32⟩
  | .hbm, ⟨23, _⟩ => ⟨S1x3072x1, .i32⟩
  | .hbm, ⟨24, _⟩ => ⟨S3072x3072x1, .f32⟩
  | .hbm, ⟨25, _⟩ => ⟨S3072x49152, .f32⟩
  | .hbm, ⟨26, _⟩ => ⟨S3072x3072x16, .f32⟩
  | .local _ .vmem, ⟨0, _⟩ => ⟨S384x16, .f32⟩
  | .local _ .vmem, ⟨1, _⟩ => ⟨S384x16, .f32⟩
  | .local _ .vmem, ⟨2, _⟩ => ⟨S384x16, .f32⟩
  | .local _ .vmem, ⟨3, _⟩ => ⟨S384x16, .f32⟩
  | .local _ .vmem, ⟨4, _⟩ => ⟨S384x384x1, .f32⟩
  | .local _ .vmem, ⟨5, _⟩ => ⟨S384x384x1, .f32⟩
  | .local _ .vmem, ⟨6, _⟩ => ⟨S384x1x1, .i32⟩
  | .local _ .vmem, ⟨7, _⟩ => ⟨S384x1x1, .i32⟩
  | .local _ .vmem, ⟨8, _⟩ => ⟨S1x384x1, .i32⟩
  | .local _ .vmem, ⟨9, _⟩ => ⟨S1x384x1, .i32⟩
  | .local _ .vmem, ⟨10, _⟩ => ⟨S384x6144, .f32⟩
  | .local _ .vmem, ⟨11, _⟩ => ⟨S384x6144, .f32⟩
  | _, _ => ⟨S3072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S3072 : S_.BroadcastsInDim S3072 (![] : Fin 0 → Fin S3072.rank)
  shapeCasts_S3072_S3072x1x1 : S3072.ShapeCasts S3072x1x1
  shapeCasts_S3072_S1x3072x1 : S3072.ShapeCasts S1x3072x1
  shapeCasts_S3072x3072_S3072x3072x1 : S3072x3072.ShapeCasts S3072x3072x1
  iota_S384x384x1_d0_w32 : S384x384x1.Iotas .tc 32 [0]
  iota_S384x384x1_d1_w32 : S384x384x1.Iotas .tc 32 [1]
  inb_S384x384x1_S384x384x1_0_0_0 : ∀ a, (![0, 0, 0] : Fin 3 → Nat) a + S384x384x1.size a ≤ S384x384x1.size a
  h_S384x384x1 : 0 < S384x384x1.numel
  shapeCasts_S384x384x1_S384x384x1 : S384x384x1.ShapeCasts S384x384x1
  natLt_1_32 : 1 < 32
  inb_S384x1x1_S384x1x1_0_0_0 : ∀ a, (![0, 0, 0] : Fin 3 → Nat) a + S384x1x1.size a ≤ S384x1x1.size a
  h_S384x1x1 : 0 < S384x1x1.numel
  shapeCasts_S384x1x1_S384x1x1 : S384x1x1.ShapeCasts S384x1x1
  inb_S1x384x1_S1x384x1_0_0_0 : ∀ a, (![0, 0, 0] : Fin 3 → Nat) a + S1x384x1.size a ≤ S1x384x1.size a
  h_S1x384x1 : 0 < S1x384x1.numel
  shapeCasts_S1x384x1_S1x384x1 : S1x384x1.ShapeCasts S1x384x1
  broadcasts_S384x1x1_S384x384x1 : S384x1x1.Broadcasts S384x384x1
  broadcasts_S1x384x1_S384x384x1 : S1x384x1.Broadcasts S384x384x1
  inb_S384x16_S384x16_0_0 : ∀ a, (![0, 0] : Fin 2 → Nat) a + S384x16.size a ≤ S384x16.size a
  h_S384x16 : 0 < S384x16.numel
  shapeCasts_S384x16_S384x1x16 : S384x16.ShapeCasts S384x1x16
  shapeCasts_S384x16_S1x384x16 : S384x16.ShapeCasts S1x384x16
  broadcasts_S384x1x16_S384x384x16 : S384x1x16.Broadcasts S384x384x16
  broadcasts_S1x384x16_S384x384x16 : S1x384x16.Broadcasts S384x384x16
  iota_S384x384x16_d2_w32 : S384x384x16.Iotas .tc 32 [2]
  broadcasts_S384x384x1_S384x384x16 : S384x384x1.Broadcasts S384x384x16
  shapeCasts_S384x384x16_S384x6144 : S384x384x16.ShapeCasts S384x6144
  inb_S384x6144_S384x6144_0_0 : ∀ a, (![0, 0] : Fin 2 → Nat) a + S384x6144.size a ≤ S384x6144.size a
  h_S384x6144 : 0 < S384x6144.numel
  shapeCasts_S3072x49152_S3072x3072x16 : S3072x49152.ShapeCasts S3072x3072x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x16.size a ≤ S3072x16.size a
  hwx0_0 : ∀ i : grid0.Coords, EltTy.bits .f32 = 32 ∨ (Rect.block (s := S3072x16) S384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x16.size a ≤ S3072x16.size a
  hwx0_1 : ∀ i : grid0.Coords, EltTy.bits .f32 = 32 ∨ (Rect.block (s := S3072x16) S384x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x384x1.size a ≤ S3072x3072x1.size a
  hwx0_2 : ∀ i : grid0.Coords, EltTy.bits .f32 = 32 ∨ (Rect.block (s := S3072x3072x1) S384x384x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S384x1x1.size a ≤ S3072x1x1.size a
  hwx0_3 : ∀ i : grid0.Coords, EltTy.bits .i32 = 32 ∨ (Rect.block (s := S3072x1x1) S384x1x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x384x1.size a ≤ S1x3072x1.size a
  hwx0_4 : ∀ i : grid0.Coords, EltTy.bits .i32 = 32 ∨ (Rect.block (s := S1x3072x1) S1x384x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S384x6144.size a ≤ S3072x49152.size a
  hwx0_5 : ∀ i : grid0.Coords, EltTy.bits .f32 = 32 ∨ (Rect.block (s := S3072x49152) S384x6144.size (cc0_transform_5 i) (hinb0_5 i)).WholeWords (EltTy.packing .f32)

variable [Facts₀]

abbrev win0_0 : Pipeline.Window sig grid0 :=
  Pipeline.Window.ofSpec (Memref.whole main_arg0) S384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S384x384x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S384x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x384x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S384x6144.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3072x16 : Shape := ⟨2, ![3072, 16]⟩
abbrev S3072x3072 : Shape := ⟨2, ![3072, 3072]⟩
abbrev S3072 : Shape := ⟨1, ![3072]⟩
abbrev S_ : Shape := ⟨0, ![]⟩
abbrev S3072x1 : Shape := ⟨2, ![3072, 1]⟩
abbrev S1x3072 : Shape := ⟨2, ![1, 3072]⟩
abbrev S1 : Shape := ⟨1, ![1]⟩
abbrev S16 : Shape := ⟨1, ![16]⟩
abbrev S3072x1x16 : Shape := ⟨3, ![3072, 1, 16]⟩
abbrev S1x3072x16 : Shape := ⟨3, ![1, 3072, 16]⟩
abbrev S3072x3072x16 : Shape := ⟨3, ![3072, 3072, 16]⟩
abbrev S3072x3072x1 : Shape := ⟨3, ![3072, 3072, 1]⟩

abbrev nBuf : Space → Nat
  | .hbm => 55
  | .vmem => 0
  | .smem => 0
  | _ => 0

abbrev bufTy : (tb : Table) → Fin (tcTables nBuf tb) → BufTy
  | .hbm, ⟨0, _⟩ => ⟨S3072x16, .f32⟩
  | .hbm, ⟨1, _⟩ => ⟨S3072x16, .f32⟩
  | .hbm, ⟨2, _⟩ => ⟨S3072x3072, .f32⟩
  | .hbm, ⟨3, _⟩ => ⟨S3072, .i32⟩
  | .hbm, ⟨4, _⟩ => ⟨S3072, .i32⟩
  | .hbm, ⟨5, _⟩ => ⟨S3072x3072, .i32⟩
  | .hbm, ⟨6, _⟩ => ⟨S3072x3072, .i32⟩
  | .hbm, ⟨7, _⟩ => ⟨S_, .i32⟩
  | .hbm, ⟨8, _⟩ => ⟨S3072x3072, .i32⟩
  | .hbm, ⟨9, _⟩ => ⟨S3072x3072, .i32⟩
  | .hbm, ⟨10, _⟩ => ⟨S3072x3072, .i1⟩
  | .hbm, ⟨11, _⟩ => ⟨S3072x3072, .f32⟩
  | .hbm, ⟨12, _⟩ => ⟨S3072x3072, .f32⟩
  | .hbm, ⟨13, _⟩ => ⟨S_, .i32⟩
  | .hbm, ⟨14, _⟩ => ⟨S3072, .i32⟩
  | .hbm, ⟨15, _⟩ => ⟨S3072, .i1⟩
  | .hbm, ⟨16, _⟩ => ⟨S_, .i32⟩
  | .hbm, ⟨17, _⟩ => ⟨S3072, .i32⟩
  | .hbm, ⟨18, _⟩ => ⟨S3072, .i1⟩
  | .hbm, ⟨19, _⟩ => ⟨S3072, .i1⟩
  | .hbm, ⟨20, _⟩ => ⟨S_, .i32⟩
  | .hbm, ⟨21, _⟩ => ⟨S3072, .i32⟩
  | .hbm, ⟨22, _⟩ => ⟨S3072, .i1⟩
  | .hbm, ⟨23, _⟩ => ⟨S3072, .i1⟩
  | .hbm, ⟨24, _⟩ => ⟨S3072x1, .i1⟩
  | .hbm, ⟨25, _⟩ => ⟨S1x3072, .i1⟩
  | .hbm, ⟨26, _⟩ => ⟨S3072x3072, .i1⟩
  | .hbm, ⟨27, _⟩ => ⟨S3072x3072, .i1⟩
  | .hbm, ⟨28, _⟩ => ⟨S3072x3072, .i1⟩
  | .hbm, ⟨29, _⟩ => ⟨S3072x1, .i32⟩
  | .hbm, ⟨30, _⟩ => ⟨S1x3072, .i32⟩
  | .hbm, ⟨31, _⟩ => ⟨S3072x3072, .i32⟩
  | .hbm, ⟨32, _⟩ => ⟨S3072x3072, .i32⟩
  | .hbm, ⟨33, _⟩ => ⟨S3072x3072, .i1⟩
  | .hbm, ⟨34, _⟩ => ⟨S3072x3072, .i1⟩
  | .hbm, ⟨35, _⟩ => ⟨S_, .f32⟩
  | .hbm, ⟨36, _⟩ => ⟨S3072x3072, .f32⟩
  | .hbm, ⟨37, _⟩ => ⟨S3072x3072, .i1⟩
  | .hbm, ⟨38, _⟩ => ⟨S3072x3072, .i1⟩
  | .hbm, ⟨39, _⟩ => ⟨S_, .i32⟩
  | .hbm, ⟨40, _⟩ => ⟨S1, .i32⟩
  | .hbm, ⟨41, _⟩ => ⟨S16, .i32⟩
  | .hbm, ⟨42, _⟩ => ⟨S1, .i32⟩
  | .hbm, ⟨43, _⟩ => ⟨S16, .i32⟩
  | .hbm, ⟨44, _⟩ => ⟨S16, .i1⟩
  | .hbm, ⟨45, _⟩ => ⟨S16, .f32⟩
  | .hbm, ⟨46, _⟩ => ⟨S3072x1x16, .f32⟩
  | .hbm, ⟨47, _⟩ => ⟨S1x3072x16, .f32⟩
  | .hbm, ⟨48, _⟩ => ⟨S3072x3072x16, .f32⟩
  | .hbm, ⟨49, _⟩ => ⟨S3072x3072x16, .f32⟩
  | .hbm, ⟨50, _⟩ => ⟨S3072x3072x16, .f32⟩
  | .hbm, ⟨51, _⟩ => ⟨S3072x3072x1, .i1⟩
  | .hbm, ⟨52, _⟩ => ⟨S3072x3072x16, .i1⟩
  | .hbm, ⟨53, _⟩ => ⟨S3072x3072x16, .f32⟩
  | .hbm, ⟨54, _⟩ => ⟨S3072x3072x16, .f32⟩
  | _, _ => ⟨S3072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_v0 : Ref sig .tc := ⟨.hbm, 52, rfl⟩
abbrev main_call1_v1 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S_S3072x3072 : S_.BroadcastsInDim S3072x3072 (![] : Fin 0 → Fin S3072x3072.rank)
  bcast_S_S3072 : S_.BroadcastsInDim S3072 (![] : Fin 0 → Fin S3072.rank)
  bcast_S3072_S3072x1_0 : S3072.BroadcastsInDim S3072x1 (![0] : Fin 1 → Fin S3072x1.rank)
  bcast_S3072_S1x3072_1 : S3072.BroadcastsInDim S1x3072 (![1] : Fin 1 → Fin S1x3072.rank)
  bcast_S3072x1_S3072x3072_0_1 : S3072x1.BroadcastsInDim S3072x3072 (![0, 1] : Fin 2 → Fin S3072x3072.rank)
  bcast_S1x3072_S3072x3072_0_1 : S1x3072.BroadcastsInDim S3072x3072 (![0, 1] : Fin 2 → Fin S3072x3072.rank)
  bcast_S_S1 : S_.BroadcastsInDim S1 (![] : Fin 0 → Fin S1.rank)
  bcast_S1_S16_0 : S1.BroadcastsInDim S16 (![0] : Fin 1 → Fin S16.rank)
  bcast_S3072x16_S3072x1x16_0_2 : S3072x16.BroadcastsInDim S3072x1x16 (![0, 2] : Fin 2 → Fin S3072x1x16.rank)
  bcast_S3072x16_S1x3072x16_1_2 : S3072x16.BroadcastsInDim S1x3072x16 (![1, 2] : Fin 2 → Fin S1x3072x16.rank)
  bcast_S3072x1x16_S3072x3072x16_0_1_2 : S3072x1x16.BroadcastsInDim S3072x3072x16 (![0, 1, 2] : Fin 3 → Fin S3072x3072x16.rank)
  bcast_S1x3072x16_S3072x3072x16_0_1_2 : S1x3072x16.BroadcastsInDim S3072x3072x16 (![0, 1, 2] : Fin 3 → Fin S3072x3072x16.rank)
  bcast_S3072x3072_S3072x3072x1_0_1 : S3072x3072.BroadcastsInDim S3072x3072x1 (![0, 1] : Fin 2 → Fin S3072x3072x1.rank)
  bcast_S3072x3072x1_S3072x3072x16_0_1_2 : S3072x3072x1.BroadcastsInDim S3072x3072x16 (![0, 1, 2] : Fin 3 → Fin S3072x3072x16.rank)
  bcast_S16_S3072x3072x16_2 : S16.BroadcastsInDim S3072x3072x16 (![2] : Fin 1 → Fin S3072x3072x16.rank)

variable [Facts₀]

class Facts : Prop extends Facts₀ where

variable [Facts]
-- ==== Proof.PairSpec.lean ====
/-
  The pairwise relation tensor, as one function of the argument arrays.

  For nodes a, b (rows of z1, z2) and a relation r, the entry (a, b, r) is the product z1[a,r] · z2[b,r] when the pair
  (a, b) is WRITTEN, and otherwise the default: 1 at r = 0 and 0 elsewhere. A pair is written when both nodes are valid
  (their class label is none of 24, 25, 26), both lie in the same graph (equal batch ids) and seg[a,b] + [a = b] = 0.

  One side folds the two validity bits into the batch ids — an invalid row reads as -1, an invalid column as -2 — and
  tests one equality; it then blends, d + p·(x·y − d) with p the pair bit as 0 or 1, where the other side selects.
  Batch ids in [0, 16) are neither sentinel, so the single equality is the conjunction (pairKer_eq); and for REAL x, y
  the blend is the selection (blend_eq): at p = 0 it is d + 0, at p = 1 it is d + (x·y − d) = x·y, which needs x·y − d
  finite.
-/
import Idealize.ShloMosaic.PureOps.Ideal
import Idealize.ShloMosaic.PureOps.Ideal.Laws
import Idealize.ShloMosaic.Lib.ValueIdx
import Idealize.ShloMosaic.Lib.Affine

noncomputable section

namespace Cert.PairSpec

open Idealize.ShloMosaic Idealize.ShloMosaic.ValueIdx

/-- A node is valid when its class label is none of 24, 25, 26. -/
def valid (cls : BitVec 32) : BitVec 1 :=
  IntOp.andi (IntOp.andi (IntOp.cmpi .ne cls 24#32) (IntOp.cmpi .ne cls 25#32)) (IntOp.cmpi .ne cls 26#32)

/-- A bit as the number 0 or 1. -/
def bitR (b : BitVec 1) : EReal := ((b.toNat : ℝ) : EReal)

theorem bitR_zero : bitR 0#1 = 0 := by simp [bitR]
theorem bitR_one : bitR 1#1 = 1 := by simp [bitR]

/-- A bit widened to a word and read signed is the same number. -/
theorem toInt_setWidth_bit (b : BitVec 1) : (((b.setWidth 32).toInt : ℝ) : EReal) = bitR b := by
  rcases BitVec.eq_zero_or_eq_one b with rfl | rfl
  · have h : ((0#1 : BitVec 1).setWidth 32).toInt = 0 := by decide
    rw [h]; simp [bitR]
  · have h : ((1#1 : BitVec 1).setWidth 32).toInt = 1 := by decide
    rw [h]; simp [bitR]

/-- The diagonal bit [a = b] of two node numbers, as words. -/
def eyeBit (a b : ℕ) : BitVec 1 := IntOp.cmpi .eq (IntOp.addi (BitVec.ofNat 32 a) 0#32) (BitVec.ofNat 32 b)

/-- seg + [a = b] = 0, as a bit. -/
def segZero (s : EReal) (e : BitVec 1) : BitVec 1 := Ideal.cmp .oeq (s + bitR e) (Ideal.ofBits .f32 0x00000000#32)

/-- The pair bit as a conjunction: both valid, same graph, seg + [a = b] = 0. -/
def pairRef (e : BitVec 1) (s : EReal) (ca cb ba bb : BitVec 32) : BitVec 1 :=
  IntOp.andi (IntOp.andi (IntOp.andi (valid ca) (valid cb)) (IntOp.cmpi .eq ba bb)) (segZero s e)

/-- The pair bit with validity folded into the batch ids: an invalid row reads -1, an invalid column -2. -/
def pairKer (e : BitVec 1) (s : EReal) (ca cb ba bb : BitVec 32) : BitVec 1 :=
  IntOp.andi (IntOp.cmpi .eq (Scalar.select (valid ca) ba 4294967295#32) (Scalar.select (valid cb) bb 4294967294#32)) (segZero s e)

theorem ne_sentinels {b : BitVec 32} (h : 0 ≤ b.toInt ∧ b.toInt < 16) : b ≠ 4294967295#32 ∧ b ≠ 4294967294#32 := by
  constructor <;> rintro rfl <;> revert h <;> decide

theorem cmpi_eq_of_ne {x y : BitVec 32} (h : x ≠ y) : IntOp.cmpi .eq x y = 0#1 := by
  rcases BitVec.eq_zero_or_eq_one (IntOp.cmpi .eq x y) with h0 | h1
  · exact h0
  · exact absurd (IntOp.cmpi_eq.mp h1) h

/-- With both batch ids in [0, 16) the one equality of the folded ids is the conjunction. -/
theorem pairKer_eq (e : BitVec 1) (s : EReal) (ca cb ba bb : BitVec 32)
    (ha : 0 ≤ ba.toInt ∧ ba.toInt < 16) (hb : 0 ≤ bb.toInt ∧ bb.toInt < 16) :
    pairKer e s ca cb ba bb = pairRef e s ca cb ba bb := by
  unfold pairKer pairRef
  congr 1
  obtain ⟨-, ha2⟩ := ne_sentinels ha
  obtain ⟨hb1, -⟩ := ne_sentinels hb
  rcases BitVec.eq_zero_or_eq_one (valid ca) with va | va <;> rcases BitVec.eq_zero_or_eq_one (valid cb) with vb | vb <;>
    rw [va, vb]
  · show IntOp.cmpi .eq 4294967295#32 4294967294#32 = IntOp.andi (IntOp.andi 0#1 0#1) _
    generalize IntOp.cmpi .eq ba bb = x
    revert x; decide
  · show IntOp.cmpi .eq 4294967295#32 bb = IntOp.andi (IntOp.andi 0#1 1#1) _
    rw [cmpi_eq_of_ne (Ne.symm hb1)]
    generalize IntOp.cmpi .eq ba bb = x
    revert x; decide
  · show IntOp.cmpi .eq ba 4294967294#32 = IntOp.andi (IntOp.andi 1#1 0#1) _
    rw [cmpi_eq_of_ne ha2]
    generalize IntOp.cmpi .eq ba bb = x
    revert x; decide
  · show IntOp.cmpi .eq ba bb = IntOp.andi (IntOp.andi 1#1 1#1) _
    generalize IntOp.cmpi .eq ba bb = x
    revert x; decide

/-- For real x, y the blend d + p·(x·y − d) is the selection of x·y at p = 1 and of d at p = 0. -/
theorem blend_eq (p d : BitVec 1) (x y : ℝ) :
    bitR d + bitR p * ((x : EReal) * (y : EReal) - bitR d) = Scalar.select p ((x : EReal) * (y : EReal)) (bitR d) := by
  rcases BitVec.eq_zero_or_eq_one p with rfl | rfl
  · rw [select_zero, bitR_zero, zero_mul, add_zero]
  · rw [select_one, bitR_one, one_mul]
    unfold bitR
    rw [← EReal.coe_mul, ← EReal.coe_sub, ← EReal.coe_add]
    congr 1; ring

/-- One entry as the blending side computes it: d + p·(x·y − d), with p the folded pair bit. -/
def Kat (e dk : BitVec 1) (s : EReal) (brow bcol : BitVec 32) (x y : EReal) : EReal :=
  bitR dk + bitR (IntOp.andi (IntOp.cmpi .eq brow bcol) (segZero s e)) * (x * y - bitR dk)

/-- The blended entry is the selected one, for real x, y and batch ids in [0, 16). -/
theorem Kat_eq (e dk : BitVec 1) (s : EReal) (ca cb ba bb : BitVec 32) (x y : ℝ)
    (ha : 0 ≤ ba.toInt ∧ ba.toInt < 16) (hb : 0 ≤ bb.toInt ∧ bb.toInt < 16) :
    Kat e dk s (Scalar.select (valid ca) ba 4294967295#32) (Scalar.select (valid cb) bb 4294967294#32) (x : EReal) (y : EReal)
      = Scalar.select (pairRef e s ca cb ba bb) ((x : EReal) * (y : EReal)) (bitR dk) := by
  unfold Kat
  rw [blend_eq]
  exact congrArg (fun p => Scalar.select p ((x : EReal) * (y : EReal)) (bitR dk)) (pairKer_eq e s ca cb ba bb ha hb)

/-- Row i0·384 + p against column i1·384 + n, computed in words block by block, is the diagonal bit of the two node
    numbers: the word of a sum or product of naturals is the sum or product of their words. -/
theorem eye_blocks (i0 p i1 n : ℕ) :
    IntOp.cmpi .eq (IntOp.addi (Scalar.muli (BitVec.ofNat 32 i0) 384#32) (BitVec.ofNat 32 p))
        (IntOp.addi (Scalar.muli (BitVec.ofNat 32 i1) 384#32) (BitVec.ofNat 32 n))
      = eyeBit (i0 * 384 + p) (i1 * 384 + n) := by
  unfold eyeBit
  have e (k t : ℕ) : IntOp.addi (Scalar.muli (BitVec.ofNat 32 k) 384#32) (BitVec.ofNat 32 t) = BitVec.ofNat 32 (k * 384 + t) := by
    show BitVec.ofNat 32 k * 384#32 + BitVec.ofNat 32 t = _
    rw [BitVec.ofNat_add, BitVec.ofNat_mul]
  rw [e, e]
  show IntOp.cmpi .eq _ _ = IntOp.cmpi .eq (BitVec.ofNat 32 (i0 * 384 + p) + 0#32) _
  rw [BitVec.add_zero]

/-- The equality bit of two words is symmetric. -/
theorem cmpi_eq_comm (x y : BitVec 32) : IntOp.cmpi .eq x y = IntOp.cmpi .eq y x := by
  rcases BitVec.eq_zero_or_eq_one (IntOp.cmpi .eq x y) with h | h
  · rw [h]
    refine (cmpi_eq_of_ne fun e => ?_).symm
    rw [IntOp.cmpi_eq.mpr e.symm] at h
    exact absurd h (by decide)
  · rw [h]
    exact (IntOp.cmpi_eq.mpr (IntOp.cmpi_eq.mp h).symm).symm

/-- Entry (a, b, r) of the result. -/
def Gat (z1 z2 : (⟨2, ![3072, 16]⟩ : Shape).Idx → EReal) (seg : (⟨2, ![3072, 3072]⟩ : Shape).Idx → EReal)
    (cls batch : (⟨1, ![3072]⟩ : Shape).Idx → BitVec 32) (a b : Fin 3072) (r : Fin 16) : EReal :=
  Scalar.select (pairRef (eyeBit a.val b.val) (seg (ix2 a b)) (cls (ix1 a)) (cls (ix1 b)) (batch (ix1 a)) (batch (ix1 b)))
    (z1 (ix2 a r) * z2 (ix2 b r)) (bitR (IntOp.cmpi .eq 0#32 (BitVec.ofNat 32 r.val)))

/-- The result, index by index. -/
def G (z1 z2 : (⟨2, ![3072, 16]⟩ : Shape).Idx → EReal) (seg : (⟨2, ![3072, 3072]⟩ : Shape).Idx → EReal)
    (cls batch : (⟨1, ![3072]⟩ : Shape).Idx → BitVec 32) : (⟨3, ![3072, 3072, 16]⟩ : Shape).Idx → EReal :=
  fun j => Gat z1 z2 seg cls batch (j 0) (j 1) (j 2)

end Cert.PairSpec

end
-- ==== Proof.PreFacts.lean ====
/-
  What the precondition says of the arguments. It is a conjunction of four "all entries" tests: |z1| < +∞, |z2| < +∞,
  |seg| < +∞ and 0 ≤ batch < 16. An extended real whose absolute value is below +∞ is a real number, so every entry of z1
  and of z2 is real, and every batch id, read signed, lies in [0, 16). (That seg is finite is not used.)
-/
import proofs.«403376_j72834055406377_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreFacts

open Idealize.ShloMosaic Cert.Pre_finite_inputs

instance : Subsingleton S_.Idx := ⟨fun a b => funext fun d => d.elim0⟩

/-- An extended real whose absolute value max x (−x) is below +∞ is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; revert h; simp [Ideal.cmp]
  | coe r => exact ⟨r, rfl⟩
  | top => exfalso; revert h; simp [Ideal.cmp]

/-- The precondition, decoded: z1 and z2 are real entrywise and every batch id is in [0, 16). -/
theorem decode [Facts] (a0 a1 : FVec Ideal S3072x16 .f32) (a2 : FVec Ideal S3072x3072 .f32) (a3 a4 : IVec S3072 32)
    (h : fn (F := Ideal) a0 a1 a2 a3 a4 = fun _ => 1#1) :
    (∀ i, ∃ r : ℝ, a0 i = (r : EReal)) ∧ (∀ i, ∃ r : ℝ, a1 i = (r : EReal))
      ∧ (∀ i, 0 ≤ (a4 i).toInt ∧ (a4 i).toInt < 16) := by
  have h0 := congrFun h ValueIdx.ix0
  dsimp only [fn, fn_part1] at h0
  obtain ⟨h012, hb⟩ := IntOp.andi_eq_one.mp h0
  obtain ⟨h01, -⟩ := IntOp.andi_eq_one.mp h012
  obtain ⟨hz1, hz2⟩ := IntOp.andi_eq_one.mp h01
  refine ⟨fun i => ?_, fun i => ?_, fun i => ?_⟩
  · exact real_of_abs_lt_top _ (Host.reduce_andi_all _ _ _ _ _ hz1 i)
  · exact real_of_abs_lt_top _ (Host.reduce_andi_all _ _ _ _ _ hz2 i)
  · obtain ⟨hge, hlt⟩ := IntOp.andi_eq_one.mp (Host.reduce_andi_all _ _ _ _ _ hb i)
    exact ⟨IntOp.cmpi_sge.mp hge, IntOp.cmpi_slt.mp hlt⟩

end Cert.PreFacts

end
-- ==== Proof.RefValue.lean ====
/-
  The reference's result, read one operation at a time, is the specification G: at (a, b, r) its composed broadcasts read
  the class labels and batch ids at a and at b, seg at (a, b), z1 at (a, r), z2 at (b, r), the diagonal bit from the two
  row-major iotas and the default from the relation iota; the operations on those entries are G's own.
-/
import proofs.«403376_j72834055406377_2_alg».proof.Proof.Gen.ReferenceIdeal.Read
import proofs.«403376_j72834055406377_2_alg».proof.Proof.PairSpec

noncomputable section

namespace Cert.ReferenceIdeal.RefValue

open Cert.ReferenceIdeal Cert.ReferenceIdeal.Gen Cert.ReferenceIdeal.Read Idealize.ShloMosaic Idealize.ShloMosaic.ValueIdx

/-- The reference's last stage is G of its arguments. -/
theorem ref_is_G (x0 x1 : (⟨S3072x16, .f32⟩ : BufTy).Contents (Elt Ideal)) (x2 : (⟨S3072x3072, .f32⟩ : BufTy).Contents (Elt Ideal))
    (x3 x4 : (⟨S3072, .i32⟩ : BufTy).Contents (Elt Ideal)) :
    val_main_v36 (F := Ideal) x0 x1 x2 x3 x4 = Cert.PairSpec.G x0 x1 x2 x3 x4 := by
  funext j
  simp only [val_main_v36_apply, val_main_call1_v0_apply, val_main_v35_apply, val_main_v28_apply, val_main_v25_apply, val_main_v19_apply, val_main_v17_apply, val_main_v15_apply, val_main_v18_apply, val_main_v16_apply, val_main_v14_apply, val_main_v11_apply, val_main_v8_apply, val_main_v7_apply, val_main_c_0_apply, val_main_v10_apply, val_main_v9_apply, val_main_c_1_apply, val_main_v13_apply, val_main_v12_apply, val_main_c_2_apply, val_main_v24_apply, val_main_v22_apply, val_main_v20_apply, val_main_v23_apply, val_main_v21_apply, val_main_v27_apply, val_main_v6_apply, val_main_v5_apply, val_main_v4_apply, val_main_v3_apply, val_main_v0_apply, val_main_v2_apply, val_main_c_apply, val_main_v1_apply, val_main_v26_apply, val_main_cst_apply, val_main_v34_apply, val_main_v32_apply, val_main_v30_apply, val_main_v33_apply, val_main_v31_apply, val_main_call1_v1_apply, val_main_v29_apply, val_main_call0_v4_apply, val_main_call0_v3_apply, val_main_call0_v2_apply, val_main_call0_v0_apply, val_main_c_3_apply, val_main_call0_v1_apply]
  -- the composed index maps are the coordinates
  have h35 : idx_main_v35 (idx_main_call1_v0 j) = (ix2 (j 0) (j 1) : S3072x3072.Idx) :=
    funext fun a => match a with | ⟨0, _⟩ => rfl | ⟨1, _⟩ => rfl
  have h15 : idx_main_v15 (idx_main_v17 (idx_main_v35 (idx_main_call1_v0 j))) = (ix1 (j 0) : S3072.Idx) :=
    funext fun a => match a with | ⟨0, _⟩ => rfl
  have h16 : idx_main_v16 (idx_main_v18 (idx_main_v35 (idx_main_call1_v0 j))) = (ix1 (j 1) : S3072.Idx) :=
    funext fun a => match a with | ⟨0, _⟩ => rfl
  have h20 : idx_main_v20 (idx_main_v22 (idx_main_v35 (idx_main_call1_v0 j))) = (ix1 (j 0) : S3072.Idx) :=
    funext fun a => match a with | ⟨0, _⟩ => rfl
  have h21 : idx_main_v21 (idx_main_v23 (idx_main_v35 (idx_main_call1_v0 j))) = (ix1 (j 1) : S3072.Idx) :=
    funext fun a => match a with | ⟨0, _⟩ => rfl
  have h30 : idx_main_v30 (idx_main_v32 j) = (ix2 (j 0) (j 2) : S3072x16.Idx) :=
    funext fun a => match a with | ⟨0, _⟩ => rfl | ⟨1, _⟩ => rfl
  have h31 : idx_main_v31 (idx_main_v33 j) = (ix2 (j 1) (j 2) : S3072x16.Idx) :=
    funext fun a => match a with | ⟨0, _⟩ => rfl | ⟨1, _⟩ => rfl
  rw [h15, h16, h20, h21, h35, h30, h31]
  rfl

end Cert.ReferenceIdeal.RefValue

end
-- ==== Proof.KernelReads.lean ====
/-
  What the kernel body reads at grid point t = (i₀, i₁), in terms of the argument arrays.

  Three of the five input windows stage arrays the host lines before the call wrote: seg viewed [3072, 3072, 1]; the
  batch ids with invalid nodes folded to -1, viewed [3072, 1, 1] (rows); and the same folded to -2, viewed [1, 3072, 1]
  (columns). The other two stage z1 and z2 as launched. Block t of each window starts at (block index) × (block size)
  on every axis, and the block indices are (i₀, 0), (i₁, 0), (i₀, i₁, 0), (i₀, 0, 0), (0, i₁, 0) for the inputs and
  (i₀, i₁) for the output: decided over the 64 grid points.
-/
import proofs.«403376_j72834055406377_2_alg».proof.Proof.FrameKernelIdeal
import proofs.«403376_j72834055406377_2_alg».proof.Proof.PairSpec
import Idealize.ShloMosaic.Lib.Pipeline.Value
import Idealize.ShloMosaic.Lib.ValueIdx
import Idealize.ShloMosaic.PureOps.Ideal
import Idealize.ShloMosaic.Lib.StableHlo.Run

noncomputable section

namespace Cert.KernelIdeal.Reads

open Cert.KernelIdeal Cert.KernelIdeal.Gen Cert.KernelIdeal.GenP Idealize.ShloMosaic Idealize.ShloMosaic.TcCoe Idealize.SL.Sem
open Idealize.ShloMosaic.StableHlo Idealize.ShloMosaic.ValueIdx Cert.PairSpec

variable (m : (ℓ : Loc nD τ sig) → Buf (Elt Ideal) ℓ)

/-- The argument arrays as launched, at their literal types. -/
abbrev A0 (c : Dev nD) : S3072x16.Idx → EReal := m ((c.tc : Thread nD τ).loc main_arg0)
abbrev A1 (c : Dev nD) : S3072x16.Idx → EReal := m ((c.tc : Thread nD τ).loc main_arg1)
abbrev A2 (c : Dev nD) : S3072x3072.Idx → EReal := m ((c.tc : Thread nD τ).loc main_arg2)
abbrev A3 (c : Dev nD) : S3072.Idx → BitVec 32 := m ((c.tc : Thread nD τ).loc main_arg3)
abbrev A4 (c : Dev nD) : S3072.Idx → BitVec 32 := m ((c.tc : Thread nD τ).loc main_arg4)

/-! ## The block indices, decided over the grid -/

theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 3) = (grid0.coords t 0).val ∧ win0_2.index t (1 : Fin 3) = (grid0.coords t 1).val
      ∧ win0_2.index t (2 : Fin 3) = 0
    ∧ win0_3.index t (0 : Fin 3) = (grid0.coords t 0).val ∧ win0_3.index t (1 : Fin 3) = 0 ∧ win0_3.index t (2 : Fin 3) = 0
    ∧ win0_4.index t (0 : Fin 3) = 0 ∧ win0_4.index t (1 : Fin 3) = (grid0.coords t 1).val ∧ win0_4.index t (2 : Fin 3) = 0
    ∧ win0_5.index t (0 : Fin 2) = (grid0.coords t 0).val ∧ win0_5.index t (1 : Fin 2) = (grid0.coords t 1).val :=
  (by decide +kernel : ∀ t : Fin grid0.N, _)

/-- Every pair of block coordinates is some grid point's. -/
theorem idx_onto : ∀ (q0 q1 : Fin 8), ∃ t : Fin cfg0.N, (grid0.coords t 0).val = q0.val ∧ (grid0.coords t 1).val = q1.val :=
  (by decide +kernel : ∀ (q0 q1 : Fin 8), ∃ t : Fin grid0.N, (grid0.coords t 0).val = q0.val ∧ (grid0.coords t 1).val = q1.val)

/-! ## The arrays the host lines before the call wrote -/

/-- seg, viewed [3072, 3072, 1]. -/
theorem V_v12 (c : Dev nD) : (V (F := Ideal) m c main_v12 : S3072x3072x1.Idx → EReal)
    = shapeCast S3072x3072x1 (A2 m c) shapeCasts_S3072x3072_S3072x3072x1 := by
  dsimp only [V, V0]
  simp only [hostOps0, hostOps0_1, hostOps0_2, hostOps0_3, hostOps0_4, List.flatten_cons, List.flatten_nil, List.append_nil, List.cons_append, List.nil_append]
  after_results
  rfl

/-- The folded ids: the batch id where the node is valid, else the sentinel. -/
def folded (c : Dev nD) (sentinel : BitVec 32) : S3072.Idx → BitVec 32 :=
  select (andi (andi (cmpi .ne (A3 m c) (broadcastInDim S3072 ![] bcast_S_S3072 (constantI S_ 32 24#32)))
      (cmpi .ne (A3 m c) (broadcastInDim S3072 ![] bcast_S_S3072 (constantI S_ 32 25#32))))
      (cmpi .ne (A3 m c) (broadcastInDim S3072 ![] bcast_S_S3072 (constantI S_ 32 26#32))))
    (A4 m c) (broadcastInDim S3072 ![] bcast_S_S3072 (constantI S_ 32 sentinel))

/-- The row ids, viewed [3072, 1, 1]: invalid nodes read -1. -/
theorem V_v9 (c : Dev nD) : (V (F := Ideal) m c main_v9 : S3072x1x1.Idx → BitVec 32)
    = shapeCast S3072x1x1 (folded m c 4294967295#32) shapeCasts_S3072_S3072x1x1 := by
  dsimp only [V, V0]
  simp only [hostOps0, hostOps0_1, hostOps0_2, hostOps0_3, hostOps0_4, List.flatten_cons, List.flatten_nil, List.append_nil, List.cons_append, List.nil_append]
  after_results
  rfl

/-- The column ids, viewed [1, 3072, 1]: invalid nodes read -2. -/
theorem V_v11 (c : Dev nD) : (V (F := Ideal) m c main_v11 : S1x3072x1.Idx → BitVec 32)
    = shapeCast S1x3072x1 (folded m c 4294967294#32) shapeCasts_S3072_S1x3072x1 := by
  dsimp only [V, V0]
  simp only [hostOps0, hostOps0_1, hostOps0_2, hostOps0_3, hostOps0_4, List.flatten_cons, List.flatten_nil, List.append_nil, List.cons_append, List.nil_append]
  after_results
  rfl

/-- A folded id at node a. -/
theorem folded_apply (c : Dev nD) (sentinel : BitVec 32) (a : Fin 3072) :
    folded m c sentinel (ix1 a) = Scalar.select (valid (A3 m c (ix1 a))) (A4 m c (ix1 a)) sentinel := rfl

/-! ## The host views read at an index -/

section Views
variable {α : Type}

theorem cast_ab1 (x : S3072x3072.Idx → α) (h : S3072x3072.ShapeCasts S3072x3072x1) (a b : Fin 3072) :
    shapeCast S3072x3072x1 x h (ix3 a b (0 : Fin 1)) = x (ix2 a b) :=
  shapeCast_apply x h (ix3 a b (0 : Fin 1)) (ix2 a b) (by
    rw [Shape.rowMajor_val_three, Shape.rowMajor_val_two]
    show a.val * 3072 + b.val = (a.val * 3072 + b.val) * 1 + 0
    omega)

theorem cast_a11 (x : S3072.Idx → α) (h : S3072.ShapeCasts S3072x1x1) (a : Fin 3072) :
    shapeCast S3072x1x1 x h (ix3 a (0 : Fin 1) (0 : Fin 1)) = x (ix1 a) :=
  shapeCast_apply x h (ix3 a (0 : Fin 1) (0 : Fin 1)) (ix1 a) (by
    rw [Shape.rowMajor_val_three, Shape.rowMajor_val_one]
    show a.val = (a.val * 1 + 0) * 1 + 0
    omega)

theorem cast_1a1 (x : S3072.Idx → α) (h : S3072.ShapeCasts S1x3072x1) (a : Fin 3072) :
    shapeCast S1x3072x1 x h (ix3 (0 : Fin 1) a (0 : Fin 1)) = x (ix1 a) :=
  shapeCast_apply x h (ix3 (0 : Fin 1) a (0 : Fin 1)) (ix1 a) (by
    rw [Shape.rowMajor_val_three, Shape.rowMajor_val_one]
    show a.val = (0 * 3072 + a.val) * 1 + 0
    omega)

end Views

/-! ## Each input block's entry as an entry of its array

  At point t the blocks start at row i₀·384 (z1, seg's rows, the row ids) and at i₁·384 (z2, seg's columns, the
  column ids). -/

/-- The z1 block at (p, r) is z1 at (i₀·384 + p, r). -/
theorem iblk0_apply (c : Dev nD) (t : Fin cfg0.N) (p : Fin 384) (r : Fin 16) (a : Fin 3072)
    (ha : a.val = (grid0.coords t 0).val * 384 + p.val) :
    (iblk (F := Ideal) m c 0 t : S384x16.Idx → EReal) (ix2 p r) = A0 m c (ix2 a r) := by
  obtain ⟨e0, e1, -⟩ := idx_facts t
  show (V (F := Ideal) m c main_arg0 : S3072x16.Idx → EReal) (((cfg0.win 0).blk t).view.emb (ix2 p r)) = _
  rw [V_main_arg0]
  refine congrArg (A0 m c) ?_
  funext d; apply Fin.ext
  match d with
  | ⟨0, _⟩ => show win0_0.index t (0 : Fin 2) * 384 + 1 * p.val = a.val; rw [e0, ha]; omega
  | ⟨1, _⟩ => show win0_0.index t (1 : Fin 2) * 16 + 1 * r.val = r.val; rw [e1]; omega

/-- The z2 block at (n, r) is z2 at (i₁·384 + n, r). -/
theorem iblk1_apply (c : Dev nD) (t : Fin cfg0.N) (n : Fin 384) (r : Fin 16) (b : Fin 3072)
    (hb : b.val = (grid0.coords t 1).val * 384 + n.val) :
    (iblk (F := Ideal) m c 1 t : S384x16.Idx → EReal) (ix2 n r) = A1 m c (ix2 b r) := by
  obtain ⟨-, -, e0, e1, -⟩ := idx_facts t
  show (V (F := Ideal) m c main_arg1 : S3072x16.Idx → EReal) (((cfg0.win 1).blk t).view.emb (ix2 n r)) = _
  rw [V_main_arg1]
  refine congrArg (A1 m c) ?_
  funext d; apply Fin.ext
  match d with
  | ⟨0, _⟩ => show win0_1.index t (0 : Fin 2) * 384 + 1 * n.val = b.val; rw [e0, hb]; omega
  | ⟨1, _⟩ => show win0_1.index t (1 : Fin 2) * 16 + 1 * r.val = r.val; rw [e1]; omega

/-- The seg block at (p, n) is seg at (i₀·384 + p, i₁·384 + n). -/
theorem iblk2_apply (c : Dev nD) (t : Fin cfg0.N) (p n : Fin 384) (a b : Fin 3072)
    (ha : a.val = (grid0.coords t 0).val * 384 + p.val) (hb : b.val = (grid0.coords t 1).val * 384 + n.val) :
    (iblk (F := Ideal) m c 2 t : S384x384x1.Idx → EReal) (ix3 p n (0 : Fin 1)) = A2 m c (ix2 a b) := by
  obtain ⟨-, -, -, -, e0, e1, e2, -⟩ := idx_facts t
  show (V (F := Ideal) m c main_v12 : S3072x3072x1.Idx → EReal) (((cfg0.win 2).blk t).view.emb (ix3 p n (0 : Fin 1))) = _
  rw [V_v12]
  have he : ((cfg0.win 2).blk t).view.emb (ix3 p n (0 : Fin 1)) = (ix3 a b (0 : Fin 1) : S3072x3072x1.Idx) := by
    funext d; apply Fin.ext
    match d with
    | ⟨0, _⟩ => show win0_2.index t (0 : Fin 3) * 384 + 1 * p.val = a.val; rw [e0, ha]; omega
    | ⟨1, _⟩ => show win0_2.index t (1 : Fin 3) * 384 + 1 * n.val = b.val; rw [e1, hb]; omega
    | ⟨2, _⟩ => show win0_2.index t (2 : Fin 3) * 1 + 1 * 0 = 0; rw [e2]
  rw [he, cast_ab1]

/-- The row-id block at p is the folded id (-1 when invalid) of node i₀·384 + p. -/
theorem iblk3_apply (c : Dev nD) (t : Fin cfg0.N) (p : Fin 384) (a : Fin 3072)
    (ha : a.val = (grid0.coords t 0).val * 384 + p.val) :
    (iblk (F := Ideal) m c 3 t : S384x1x1.Idx → BitVec 32) (ix3 p (0 : Fin 1) (0 : Fin 1))
      = Scalar.select (valid (A3 m c (ix1 a))) (A4 m c (ix1 a)) 4294967295#32 := by
  obtain ⟨-, -, -, -, -, -, -, e0, e1, e2, -⟩ := idx_facts t
  show (V (F := Ideal) m c main_v9 : S3072x1x1.Idx → BitVec 32) (((cfg0.win 3).blk t).view.emb (ix3 p (0 : Fin 1) (0 : Fin 1))) = _
  rw [V_v9]
  have he : ((cfg0.win 3).blk t).view.emb (ix3 p (0 : Fin 1) (0 : Fin 1)) = (ix3 a (0 : Fin 1) (0 : Fin 1) : S3072x1x1.Idx) := by
    funext d; apply Fin.ext
    match d with
    | ⟨0, _⟩ => show win0_3.index t (0 : Fin 3) * 384 + 1 * p.val = a.val; rw [e0, ha]; omega
    | ⟨1, _⟩ => show win0_3.index t (1 : Fin 3) * 1 + 1 * 0 = 0; rw [e1]
    | ⟨2, _⟩ => show win0_3.index t (2 : Fin 3) * 1 + 1 * 0 = 0; rw [e2]
  rw [he, cast_a11, folded_apply]

/-- The column-id block at n is the folded id (-2 when invalid) of node i₁·384 + n. -/
theorem iblk4_apply (c : Dev nD) (t : Fin cfg0.N) (n : Fin 384) (b : Fin 3072)
    (hb : b.val = (grid0.coords t 1).val * 384 + n.val) :
    (iblk (F := Ideal) m c 4 t : S1x384x1.Idx → BitVec 32) (ix3 (0 : Fin 1) n (0 : Fin 1))
      = Scalar.select (valid (A3 m c (ix1 b))) (A4 m c (ix1 b)) 4294967294#32 := by
  obtain ⟨-, -, -, -, -, -, -, -, -, -, e0, e1, e2, -⟩ := idx_facts t
  show (V (F := Ideal) m c main_v11 : S1x3072x1.Idx → BitVec 32) (((cfg0.win 4).blk t).view.emb (ix3 (0 : Fin 1) n (0 : Fin 1))) = _
  rw [V_v11]
  have he : ((cfg0.win 4).blk t).view.emb (ix3 (0 : Fin 1) n (0 : Fin 1)) = (ix3 (0 : Fin 1) b (0 : Fin 1) : S1x3072x1.Idx) := by
    funext d; apply Fin.ext
    match d with
    | ⟨0, _⟩ => show win0_4.index t (0 : Fin 3) * 1 + 1 * 0 = 0; rw [e0]
    | ⟨1, _⟩ => show win0_4.index t (1 : Fin 3) * 384 + 1 * n.val = b.val; rw [e1, hb]; omega
    | ⟨2, _⟩ => show win0_4.index t (2 : Fin 3) * 1 + 1 * 0 = 0; rw [e2]
  rw [he, cast_1a1, folded_apply]

end Cert.KernelIdeal.Reads

end
-- ==== Proof.KernelPay.lean ====
/-
  One entry of the block the kernel body stores. The body stores a [384, 6144] block whose entry (p, n·16 + r) is entry
  (p, n, r) of a [384, 384, 16] value (the two minor axes merged row-major), and that value is pointwise in its operands:
  the seg block at (p, n), the folded row id at p, the folded column id at n, the z1 block at (p, r), the z2 block at (n, r),
  the diagonal bit of row i₀·384 + p against column i₁·384 + n at grid point (i₀, i₁), and the relation-0 bit of r. Each
  broadcast reads its operand at the coordinates it keeps and 0 on the unit axes; the blend is PairSpec's Kat.
-/
import proofs.«403376_j72834055406377_2_alg».proof.Proof.Gen.KernelIdeal.Skeleton
import proofs.«403376_j72834055406377_2_alg».proof.Proof.PairSpec
import Idealize.ShloMosaic.Lib.Pipeline.Value
import Idealize.ShloMosaic.Lib.ValueIdx

noncomputable section

namespace Cert.KernelIdeal.PayValue

open Cert.KernelIdeal Cert.KernelIdeal.Gen Idealize.ShloMosaic Idealize.ShloMosaic.ValueIdx Cert.PairSpec

section Layout
variable {α : Type}

/-- [384,384,1] → [384,384,16]: the relation axis is new. -/
theorem bcast_pn1 (x : S384x384x1.Idx → α) (h : S384x384x1.Broadcasts S384x384x16) (p n : Fin 384) (r : Fin 16) :
    broadcastTo S384x384x16 x h (ix3 p n r) = x (ix3 p n (0 : Fin 1)) :=
  broadcastTo_apply x h (ix3 p n r) (ix3 p n (0 : Fin 1)) fun a => match a with
    | ⟨0, _⟩ => by show p.val = if (384 : ℕ) = 1 then 0 else p.val; rw [if_neg (by decide)]
    | ⟨1, _⟩ => by show n.val = if (384 : ℕ) = 1 then 0 else n.val; rw [if_neg (by decide)]
    | ⟨2, _⟩ => by show (0 : ℕ) = if (1 : ℕ) = 1 then 0 else r.val; rw [if_pos rfl]

/-- [384,1,1] → [384,384,1]: a per-row value along the columns. -/
theorem bcast_p11 (x : S384x1x1.Idx → α) (h : S384x1x1.Broadcasts S384x384x1) (p n : Fin 384) :
    broadcastTo S384x384x1 x h (ix3 p n (0 : Fin 1)) = x (ix3 p (0 : Fin 1) (0 : Fin 1)) :=
  broadcastTo_apply x h (ix3 p n (0 : Fin 1)) (ix3 p (0 : Fin 1) (0 : Fin 1)) fun a => match a with
    | ⟨0, _⟩ => by show p.val = if (384 : ℕ) = 1 then 0 else p.val; rw [if_neg (by decide)]
    | ⟨1, _⟩ => by show (0 : ℕ) = if (1 : ℕ) = 1 then 0 else n.val; rw [if_pos rfl]
    | ⟨2, _⟩ => by show (0 : ℕ) = if (1 : ℕ) = 1 then 0 else 0; rw [if_pos rfl]

/-- [1,384,1] → [384,384,1]: a per-column value along the rows. -/
theorem bcast_1n1 (x : S1x384x1.Idx → α) (h : S1x384x1.Broadcasts S384x384x1) (p n : Fin 384) :
    broadcastTo S384x384x1 x h (ix3 p n (0 : Fin 1)) = x (ix3 (0 : Fin 1) n (0 : Fin 1)) :=
  broadcastTo_apply x h (ix3 p n (0 : Fin 1)) (ix3 (0 : Fin 1) n (0 : Fin 1)) fun a => match a with
    | ⟨0, _⟩ => by show (0 : ℕ) = if (1 : ℕ) = 1 then 0 else p.val; rw [if_pos rfl]
    | ⟨1, _⟩ => by show n.val = if (384 : ℕ) = 1 then 0 else n.val; rw [if_neg (by decide)]
    | ⟨2, _⟩ => by show (0 : ℕ) = if (1 : ℕ) = 1 then 0 else 0; rw [if_pos rfl]

/-- [384,1,16] → [384,384,16]: a row's relation vector along the columns. -/
theorem bcast_p1r (x : S384x1x16.Idx → α) (h : S384x1x16.Broadcasts S384x384x16) (p n : Fin 384) (r : Fin 16) :
    broadcastTo S384x384x16 x h (ix3 p n r) = x (ix3 p (0 : Fin 1) r) :=
  broadcastTo_apply x h (ix3 p n r) (ix3 p (0 : Fin 1) r) fun a => match a with
    | ⟨0, _⟩ => by show p.val = if (384 : ℕ) = 1 then 0 else p.val; rw [if_neg (by decide)]
    | ⟨1, _⟩ => by show (0 : ℕ) = if (1 : ℕ) = 1 then 0 else n.val; rw [if_pos rfl]
    | ⟨2, _⟩ => by show r.val = if (16 : ℕ) = 1 then 0 else r.val; rw [if_neg (by decide)]

/-- [1,384,16] → [384,384,16]: a column's relation vector along the rows. -/
theorem bcast_1nr (x : S1x384x16.Idx → α) (h : S1x384x16.Broadcasts S384x384x16) (p n : Fin 384) (r : Fin 16) :
    broadcastTo S384x384x16 x h (ix3 p n r) = x (ix3 (0 : Fin 1) n r) :=
  broadcastTo_apply x h (ix3 p n r) (ix3 (0 : Fin 1) n r) fun a => match a with
    | ⟨0, _⟩ => by show (0 : ℕ) = if (1 : ℕ) = 1 then 0 else p.val; rw [if_pos rfl]
    | ⟨1, _⟩ => by show n.val = if (384 : ℕ) = 1 then 0 else n.val; rw [if_neg (by decide)]
    | ⟨2, _⟩ => by show r.val = if (16 : ℕ) = 1 then 0 else r.val; rw [if_neg (by decide)]

/-- [384,16] viewed [384,1,16]. -/
theorem cast_p1r (x : S384x16.Idx → α) (h : S384x16.ShapeCasts S384x1x16) (p : Fin 384) (r : Fin 16) :
    shapeCast S384x1x16 x h (ix3 p (0 : Fin 1) r) = x (ix2 p r) :=
  shapeCast_apply x h (ix3 p (0 : Fin 1) r) (ix2 p r) (by
    rw [Shape.rowMajor_val_three, Shape.rowMajor_val_two]
    show p.val * 16 + r.val = (p.val * 1 + 0) * 16 + r.val
    omega)

/-- [384,16] viewed [1,384,16]. -/
theorem cast_1nr (x : S384x16.Idx → α) (h : S384x16.ShapeCasts S1x384x16) (n : Fin 384) (r : Fin 16) :
    shapeCast S1x384x16 x h (ix3 (0 : Fin 1) n r) = x (ix2 n r) :=
  shapeCast_apply x h (ix3 (0 : Fin 1) n r) (ix2 n r) (by
    rw [Shape.rowMajor_val_three, Shape.rowMajor_val_two]
    show n.val * 16 + r.val = (0 * 384 + n.val) * 16 + r.val
    omega)

end Layout

/-- The integer vector operations are pointwise. -/
theorem cmpi_apply {S : Shape} {w : ℕ} (P : CmpIPredicate) (x y : IVec S w) (j : S.Idx) : cmpi P x y j = IntOp.cmpi P (x j) (y j) := rfl
theorem andi_apply {S : Shape} {w : ℕ} (x y : IVec S w) (j : S.Idx) : andi x y j = IntOp.andi (x j) (y j) := rfl
theorem addi_apply {S : Shape} {w : ℕ} (x y : IVec S w) (j : S.Idx) : addi x y j = IntOp.addi (x j) (y j) := rfl

/-- A widened bit converted to a float is the bit as a number. -/
theorem sitofp_bit (b : BitVec 1) : FloatOps.sitofp (F := Ideal) .f32 (b.setWidth 32) = bitR b := toInt_setWidth_bit b

/-- Entry (p, n·16 + r) of the stored block. -/
theorem pay_apply (i : grid0.Coords) (sg : Vec Ideal S384x384x1 .f32) (br : Vec Ideal S384x1x1 .i32) (bc : Vec Ideal S1x384x1 .i32)
    (za zb : Vec Ideal S384x16 .f32) (p n : Fin 384) (r : Fin 16) (q : Fin 6144) (hq : q.val = n.val * 16 + r.val) :
    k0_pay1 (k0_pay2 (F := Ideal)) (k0_pay3 i sg br bc za zb) (ix2 p q)
      = Kat (eyeBit ((i 0).val * 384 + p.val) ((i 1).val * 384 + n.val)) (IntOp.cmpi .eq 0#32 (BitVec.ofNat 32 r.val))
          (sg (ix3 p n (0 : Fin 1))) (br (ix3 p (0 : Fin 1) (0 : Fin 1))) (bc (ix3 (0 : Fin 1) n (0 : Fin 1)))
          (za (ix2 p r)) (zb (ix2 n r)) := by
  unfold k0_pay1
  refine (shapeCast_apply _ _ (ix2 p q) (ix3 p n r) ?_).trans ?_
  · rw [Shape.rowMajor_val_three, Shape.rowMajor_val_two]
    show ((p.val * 384 + n.val) * 16 + r.val) = p.val * 6144 + q.val
    omega
  rw [addf_apply]
  unfold k0_pay3 k0_pay2
  try dsimp only
  rw [mulf_apply, subf_apply, mulf_apply, bcast_pn1, bcast_p1r, bcast_1nr, cast_p1r, cast_1nr]
  simp only [sitofp_apply, extui_apply, sitofp_bit, cmpi_apply, andi_apply, addi_apply, cmpf_apply, addf_apply, broadcast_apply,
    iota_single_apply, shapeCast_self, bcast_p11, bcast_1n1, Ideal.cmpf_def, Ideal.ofBits_def]
  have i2 : iota Kind.tc S384x384x16 32 [2] iota_S384x384x16_d2_w32 (ix3 p n r) = BitVec.ofNat 32 r.val :=
    iota_single_apply .tc S384x384x16 32 2 _ (ix3 p n r)
  have i0 : iota Kind.tc S384x384x1 32 [0] iota_S384x384x1_d0_w32 (ix3 p n (0 : Fin 1)) = BitVec.ofNat 32 p.val :=
    iota_single_apply .tc S384x384x1 32 0 _ (ix3 p n (0 : Fin 1))
  have i1 : iota Kind.tc S384x384x1 32 [1] iota_S384x384x1_d1_w32 (ix3 p n (0 : Fin 1)) = BitVec.ofNat 32 n.val :=
    iota_single_apply .tc S384x384x1 32 1 _ (ix3 p n (0 : Fin 1))
  rw [i2, i0, i1, eye_blocks, cmpi_eq_comm (BitVec.ofNat 32 r.val) 0#32]
  rfl

end Cert.KernelIdeal.PayValue

end
-- ==== Proof.KernelBlocks.lean ====
/-
  From blocks to the array, and the run.

  At grid point t = (i₀, i₁) the body stores a [384, 6144] block whose entry (p, n·16 + r) is, by the payload read at an
  index and the block reads, the blended entry of nodes a = i₀·384 + p and b = i₁·384 + n at relation r; under the
  precondition (z1, z2 real, batch ids in [0, 16)) that is the specification's entry (a, b, r). Block t lands at rows
  i₀·384 …, columns i₁·6144 … of the [3072, 49152] result, the 64 blocks tile it, so that array ends holding the
  specification with its two minor axes merged; the one host line after the call splits them again.
-/
import proofs.«403376_j72834055406377_2_alg».proof.Proof.FrameKernelIdeal
import proofs.«403376_j72834055406377_2_alg».proof.Proof.KernelReads
import proofs.«403376_j72834055406377_2_alg».proof.Proof.KernelPay
import proofs.«403376_j72834055406377_2_alg».proof.Proof.PairSpec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.StableHlo Idealize.ShloMosaic.ValueIdx Cert.PairSpec Cert.KernelIdeal.Reads Cert.KernelIdeal.PayValue
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the precondition gives on core c: z1 and z2 real entrywise, the batch ids in [0, 16). -/
structure Dom (c : Dev nD) : Prop where
  z1 : ∀ i, ∃ x : ℝ, A0 m c i = (x : EReal)
  z2 : ∀ i, ∃ y : ℝ, A1 m c i = (y : EReal)
  batch : ∀ i, 0 ≤ (A4 m c i).toInt ∧ (A4 m c i).toInt < 16

/-- The specification with its two minor axes merged: entry (a, b·16 + r) is the specification's entry (a, b, r). -/
def G2 (c : Dev nD) : S3072x49152.Idx → EReal := fun i =>
  Gat (A0 m c) (A1 m c) (A2 m c) (A3 m c) (A4 m c) (i 0)
    ⟨(i 1).val / 16, by have h : (i 1).val < 49152 := (i 1).isLt; omega⟩ ⟨(i 1).val % 16, Nat.mod_lt _ (by decide)⟩

theorem G2_apply (c : Dev nD) (i : S3072x49152.Idx) (a b : Fin 3072) (r : Fin 16) (h0 : (i 0).val = a.val)
    (h1 : (i 1).val = b.val * 16 + r.val) : G2 m c i = Gat (A0 m c) (A1 m c) (A2 m c) (A3 m c) (A4 m c) a b r := by
  unfold G2
  have hr : r.val < 16 := r.isLt
  exact congr (congr (congrArg (Gat (A0 m c) (A1 m c) (A2 m c) (A3 m c) (A4 m c)) (Fin.ext h0))
    (Fin.ext (by show (i 1).val / 16 = b.val; omega))) (Fin.ext (by show (i 1).val % 16 = r.val; omega))

/-- What point t writes back is block t of the merged specification. -/
theorem flushed_eq (c : Dev nD) (hd : Dom m c) (t : Fin cfg0.N) :
    (dats (F := Ideal) m 0 c).flushed 5 t = ((cfg0.win 5).blk t).view.read (Elt Ideal) (G2 m c) := by
  show (cfg0.win 5).cut (grid0.coords t) ((dats (F := Ideal) m 0 c).after 5 t) = _
  rw [after0_5]
  unfold out0_5
  rw [View.canon_unit_zero hz2]
  simp only [View.ld_unit_zero (S := S384x16) hz2, View.ld_unit_zero (S := S384x384x1) hz3, View.ld_unit_zero (S := S384x1x1) hz3,
    View.ld_unit_zero (S := S1x384x1) hz3]
  funext j
  obtain ⟨p, q, rfl⟩ : ∃ (p : Fin 384) (q : Fin 6144), j = ix2 p q := ⟨j 0, j 1, eq_ix2 j⟩
  obtain ⟨-, -, -, -, -, -, -, -, -, -, -, -, -, e50, e51⟩ := idx_facts t
  have hi0 : (grid0.coords t 0).val < 8 := (grid0.coords t 0).isLt
  have hi1 : (grid0.coords t 1).val < 8 := (grid0.coords t 1).isLt
  have hp : p.val < 384 := p.isLt
  have hq : q.val < 6144 := q.isLt
  have hn : q.val / 16 < 384 := by omega
  have hr : q.val % 16 < 16 := Nat.mod_lt _ (by decide)
  have ha : (grid0.coords t 0).val * 384 + p.val < 3072 := by omega
  have hb : (grid0.coords t 1).val * 384 + q.val / 16 < 3072 := by omega
  show k0_pay1 (k0_pay2 (F := Ideal)) (k0_pay3 (grid0.coords t) (iblk (F := Ideal) m c 2 t) (iblk (F := Ideal) m c 3 t)
      (iblk (F := Ideal) m c 4 t) (iblk (F := Ideal) m c 0 t) (iblk (F := Ideal) m c 1 t)) (ix2 p q)
    = G2 m c (((cfg0.win 5).blk t).view.emb (ix2 p q))
  -- the block's entry, by the payload at an index
  refine Eq.trans (pay_apply (grid0.coords t) (iblk (F := Ideal) m c 2 t) (iblk (F := Ideal) m c 3 t) (iblk (F := Ideal) m c 4 t)
    (iblk (F := Ideal) m c 0 t) (iblk (F := Ideal) m c 1 t) p ⟨q.val / 16, hn⟩ ⟨q.val % 16, hr⟩ q
    (by show q.val = q.val / 16 * 16 + q.val % 16; omega)) ?_
  -- the blocks' entries are the arrays' entries at nodes a = i₀·384 + p and b = i₁·384 + q / 16
  rw [iblk2_apply m c t p ⟨q.val / 16, hn⟩ ⟨_, ha⟩ ⟨_, hb⟩ rfl rfl, iblk3_apply m c t p ⟨_, ha⟩ rfl,
    iblk4_apply m c t ⟨q.val / 16, hn⟩ ⟨_, hb⟩ rfl, iblk0_apply m c t p ⟨q.val % 16, hr⟩ ⟨_, ha⟩ rfl,
    iblk1_apply m c t ⟨q.val / 16, hn⟩ ⟨q.val % 16, hr⟩ ⟨_, hb⟩ rfl]
  -- the blend is the selection, z1 and z2 being real and the batch ids in range
  obtain ⟨x, hx⟩ := hd.z1 (ix2 ⟨_, ha⟩ ⟨q.val % 16, hr⟩)
  obtain ⟨y, hy⟩ := hd.z2 (ix2 ⟨_, hb⟩ ⟨q.val % 16, hr⟩)
  rw [hx, hy, Kat_eq _ _ _ _ _ _ _ x y (hd.batch (ix1 ⟨_, ha⟩)) (hd.batch (ix1 ⟨_, hb⟩)), ← hx, ← hy]
  -- and that is the merged specification at the array index under the block's entry
  rw [G2_apply m c _ ⟨_, ha⟩ ⟨_, hb⟩ ⟨q.val % 16, hr⟩
    (by show win0_5.index t (0 : Fin 2) * 384 + 1 * p.val = (grid0.coords t 0).val * 384 + p.val; rw [e50]; omega)
    (by show win0_5.index t (1 : Fin 2) * 6144 + 1 * q.val = ((grid0.coords t 1).val * 384 + q.val / 16) * 16 + q.val % 16
        rw [e51]; omega)]
  rfl

/-- An index of the result is in point t's block iff each coordinate is in the block's range on its axis. -/
theorem mem_blk (t : Fin cfg0.N) (i : S3072x49152.Idx) :
    i ∈ ((cfg0.win 5).blk t).view.set ↔ ∀ a : Fin 2, win0_5.index t a * S384x6144.size a ≤ (i a).val
      ∧ (i a).val < win0_5.index t a * S384x6144.size a + S384x6144.size a := by
  show i ∈ ((View.whole main_v13).slice (win0_5.rect t)).set ↔ _
  rw [View.set_slice_whole, Rect.mem_set_unit]
  exact Iff.rfl

/-- The 64 blocks tile the result: row a is in block row a / 384, column k in block column k / 6144. -/
theorem cover (i : S3072x49152.Idx) : ∃ t : Fin cfg0.N, (cfg0.win 5).flush t = true ∧ i ∈ ((cfg0.win 5).blk t).view.set := by
  have h0 : (i 0).val < 3072 := (i 0).isLt
  have h1 : (i 1).val < 49152 := (i 1).isLt
  obtain ⟨t, q0, q1⟩ := idx_onto ⟨(i 0).val / 384, by omega⟩ ⟨(i 1).val / 6144, by omega⟩
  obtain ⟨-, -, -, -, -, -, -, -, -, -, -, -, -, e50, e51⟩ := idx_facts t
  refine ⟨t, flush0_5 t, ?_⟩
  rw [mem_blk]
  intro a
  match a with
  | ⟨0, _⟩ =>
    show win0_5.index t (0 : Fin 2) * 384 ≤ (i 0).val ∧ (i 0).val < win0_5.index t (0 : Fin 2) * 384 + 384
    rw [e50, q0]; show (i 0).val / 384 * 384 ≤ (i 0).val ∧ (i 0).val < (i 0).val / 384 * 384 + 384; omega
  | ⟨1, _⟩ =>
    show win0_5.index t (1 : Fin 2) * 6144 ≤ (i 1).val ∧ (i 1).val < win0_5.index t (1 : Fin 2) * 6144 + 6144
    rw [e51, q1]; show (i 1).val / 6144 * 6144 ≤ (i 1).val ∧ (i 1).val < (i 1).val / 6144 * 6144 + 6144; omega

/-- The result array after the call is the merged specification. -/
theorem final (c : Dev nD) (hd : Dom m c) : (dats (F := Ideal) m 0 c).arrAt 5 cfg0.N = G2 m c :=
  (dats (F := Ideal) m 0 c).arrAt_eq_of_cover 5 (G2 m c) (fun t _ => flushed_eq m c hd t) (cover)

/-- Splitting the merged axes of the merged specification gives the specification. -/
theorem G2_split (c : Dev nD) (h : S3072x49152.ShapeCasts S3072x3072x16) :
    shapeCast S3072x3072x16 (G2 m c) h = G (A0 m c) (A1 m c) (A2 m c) (A3 m c) (A4 m c) := by
  funext j
  have h1 : (j 1).val < 3072 := (j 1).isLt
  have h2 : (j 2).val < 16 := (j 2).isLt
  refine (shapeCast_apply (G2 m c) h j (ix2 (j 0) ⟨(j 1).val * 16 + (j 2).val, by omega⟩ : S3072x49152.Idx) ?_).trans ?_
  · rw [Shape.rowMajor_val_two, Shape.rowMajor_val_three]
    show (j 0).val * 49152 + ((j 1).val * 16 + (j 2).val) = ((j 0).val * 3072 + (j 1).val) * 16 + (j 2).val
    omega
  · exact G2_apply m c _ (j 0) (j 1) (j 2) rfl rfl

/-- The result buffer after the host line that follows the call. -/
theorem tail_eq (c : Dev nD) (hd : Dom m c) :
    Pipeline.afterTail₀ cfgs (dats (F := Ideal) m) 0 (V0 m) [hostOps1] c main_v14
      = G (A0 m c) (A1 m c) (A2 m c) (A3 m c) (A4 m c) := by
  unfold Pipeline.afterTail₀
  show StableHlo.after hostOps1 _ (Proc.devRef .tc main_v14) = _
  after_results
  have hw : Pipeline.withArrays (cfgs 0).spec c (V0 m c) (fun w => (dats (F := Ideal) m 0 c).arrAt w (cfgs 0).N)
      (Proc.devRef .tc main_v13) = G2 m c :=
    (Pipeline.withArrays_arr spec0 launch0.win.arr_inj c _ _ 5).trans (final m c hd)
  exact (congrArg (fun X : S3072x49152.Idx → EReal => shapeCast S3072x3072x16 X shapeCasts_S3072x49152_S3072x3072x16) hw).trans
    (G2_split m c _)

/-- The run, read: under the precondition's facts every weakly fair execution ends with the result at the specification of
    the arguments, the arguments unchanged. -/
theorem run (hd : ∀ c, Dom m c) :
    θ_run defs (onTc (τ := τ) (main (F := Ideal))) ⟨m, fun _ => 0, ρ⟩ (fun r => ∀ c : Dev nD,
      r.2.mem ((c.tc : Thread nD τ).loc main_v14) = G (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_eq m c (hd c)),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Blocks

end
-- ==== Proof.lean ====
/-
  The pairwise relation tensor of two node sets: the kernel against its reference, over the extended reals.

  Both programs compute, for nodes a, b and relation r, the product z1[a,r] · z2[b,r] where the pair (a, b) is written —
  both nodes valid (class label none of 24, 25, 26), equal batch ids, seg[a,b] + [a = b] = 0 — and otherwise the one-hot
  default on relation 0 (PairSpec.G). The reference selects. The kernel folds validity into the batch ids (-1 for an
  invalid row, -2 for an invalid column), tests one equality, and blends d + p·(x·y − d); it works on 384 × 384 tiles of the
  pair space, stores each tile with its two minor axes merged, and the host splits them again.

  The two agree where every entry of z1 and z2 is finite (so that x·y − d is a real number and the blend is the selection)
  and every batch id lies in [0, 16) (so that no id is a sentinel): that is the precondition. preserves is trivial: the
  idealized kernel is the kernel's own text read over the extended reals.
-/
import proofs.«403376_j72834055406377_2_alg».proof.Defs
import proofs.«403376_j72834055406377_2_alg».proof.Proof.Gen.Kernel
import proofs.«403376_j72834055406377_2_alg».proof.Proof.Gen.KernelIdeal
import proofs.«403376_j72834055406377_2_alg».proof.Proof.Gen.ReferenceIdeal
import proofs.«403376_j72834055406377_2_alg».proof.Proof.Gen.Pre_finite_inputs
import proofs.«403376_j72834055406377_2_alg».proof.Proof.Gen.ReferenceIdeal.Run
import proofs.«403376_j72834055406377_2_alg».proof.Proof.Gen.ReferenceIdeal.Read
import proofs.«403376_j72834055406377_2_alg».proof.Proof.FrameKernel
import proofs.«403376_j72834055406377_2_alg».proof.Proof.FrameKernelIdeal
import proofs.«403376_j72834055406377_2_alg».proof.Proof.PairSpec
import proofs.«403376_j72834055406377_2_alg».proof.Proof.PreFacts
import proofs.«403376_j72834055406377_2_alg».proof.Proof.RefValue
import proofs.«403376_j72834055406377_2_alg».proof.Proof.KernelBlocks
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, both programs end with the specification of the arguments: the kernel by
    its tiles (under the precondition's facts), the reference operation by operation. -/
theorem algebraic : Cert.algebraic_KernelIdeal_ReferenceIdeal := by
  intro m ρ m' ρ' hpre hagree
  have hd : ∀ c, Cert.KernelIdeal.Blocks.Dom m c := fun c => by
    obtain ⟨h1, h2, h3⟩ := Cert.PreFacts.decode _ _ _ _ _ (hpre c)
    exact ⟨h1, h2, h3⟩
  refine ⟨fun c => Cert.PairSpec.G (Cert.KernelIdeal.Reads.A0 m c) (Cert.KernelIdeal.Reads.A1 m c) (Cert.KernelIdeal.Reads.A2 m c)
    (Cert.KernelIdeal.Reads.A3 m c) (Cert.KernelIdeal.Reads.A4 m c), Cert.KernelIdeal.Blocks.run m ρ hd, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_is_G, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
